-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S100000 : Shape := ⟨1, ![100000]⟩
abbrev S128x256 : Shape := ⟨2, ![128, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S256 .f32) (main_arg6 : FVec F S256x1 .f32) (main_arg7 : FVec F S1 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x1 .f32 := Host.absf main_arg6
  let main_cst_8 : FVec F S_ .f32 := constant S_ .f32 0x7F800000#32
  let main_v25 : FVec F S256x1 .f32 := broadcastInDim S256x1 ![] bcast_S_S256x1 main_cst_8
  let main_v26 : IVec S256x1 1 := cmpf .olt main_v24 main_v25
  let main_c_9 : IVec S_ 1 := constantI S_ 1 1#1
  let main_v27 : IVec S_ 1 := (fun x v => Host.reduce IntOp.andi x v reducesTo_S256x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x128 .f32) (main_arg1 : IVec S100000 32) (main_arg2 : FVec F S128x256 .f32) (main_arg3 : FVec F S256 .f32) (main_arg4 : FVec F S256x256 .f32) (main_arg5 : FVec F S256 .f32) (main_arg6 : FVec F S256x1 .f32) (main_arg7 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_v13 main_v16
-- ==== Kernel.lean ====
abbrev S100000x128 : Shape := ⟨2, ![100000, 128]⟩
abbrev S100000 : Shape := ⟨1, ![100000]⟩
abbrev S128x256 : Shape := ⟨2, ![128, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S_ : Shape := ⟨0, ![]⟩
abbrev S512x128 : Shape := ⟨2, ![512, 128]⟩
abbrev S100000x1 : Shape := ⟨2, ![100000, 1]⟩
abbrev S1x256 : Shape := ⟨2, ![1, 256]⟩
abbrev S100000x256 : Shape := ⟨2, ![100000, 256]⟩
abbrev S5000x128 : Shape := ⟨2, ![5000, 128]⟩
abbrev S5000x256 : Shape := ⟨2, ![5000, 256]⟩
abbrev S512x256 : Shape := ⟨2, ![512, 256]⟩
abbrev S1x1 : Shape := ⟨2, ![1, 1]⟩
abbrev S5000x1 : Shape := ⟨2, ![5000, 1]⟩

abbrev nBuf : Space → Nat
  | .hbm => 39
  | .vmem => 14
  | .smem => 0
  | _ => 0

abbrev bufTy : (tb : Table) → Fin (tcTables nBuf tb) → BufTy
  | .hbm, ⟨0, _⟩ => ⟨S100000x128, .f32⟩
  | .hbm, ⟨1, _⟩ => ⟨S100000, .i32⟩
  | .hbm, ⟨2, _⟩ => ⟨S128x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x1, .f32⟩
  | .hbm, ⟨7, _⟩ => ⟨S1, .f32⟩
  | .hbm, ⟨8, _⟩ => ⟨S_, .f32⟩
  | .hbm, ⟨9, _⟩ => ⟨S512x128, .f32⟩
  | .hbm, ⟨10, _⟩ => ⟨S100000x1, .i32⟩
  | .hbm, ⟨11, _⟩ => ⟨S512x128, .f32⟩
  | .hbm, ⟨12, _⟩ => ⟨S_, .i32⟩
  | .hbm, ⟨13, _⟩ => ⟨S100000, .i32⟩
  | .hbm, ⟨14, _⟩ => ⟨S100000, .i1⟩
  | .hbm, ⟨15, _⟩ => ⟨S_, .i32⟩
  | .hbm, ⟨16, _⟩ => ⟨S100000, .i32⟩
  | .hbm, ⟨17, _⟩ => ⟨S100000, .i32⟩
  | .hbm, ⟨18, _⟩ => ⟨S100000, .i32⟩
  | .hbm, ⟨19, _⟩ => ⟨S100000x1, .i32⟩
  | .hbm, ⟨20, _⟩ => ⟨S100000x128, .f32⟩
  | .hbm, ⟨21, _⟩ => ⟨S1x256, .f32⟩
  | .hbm, ⟨22, _⟩ => ⟨S100000x256, .f32⟩
  | .hbm, ⟨23, _⟩ => ⟨S_, .f32⟩
  | .hbm, ⟨24, _⟩ => ⟨S512x256, .f32⟩
  | .hbm, ⟨25, _⟩ => ⟨S100000x1, .i32⟩
  | .hbm, ⟨26, _⟩ => ⟨S512x256, .f32⟩
  | .hbm, ⟨27, _⟩ => ⟨S_, .i32⟩
  | .hbm, ⟨28, _⟩ => ⟨S100000, .i32⟩
  | .hbm, ⟨29, _⟩ => ⟨S100000, .i1⟩
  | .hbm, ⟨30, _⟩ => ⟨S_, .i32⟩
  | .hbm, ⟨31, _⟩ => ⟨S100000, .i32⟩
  | .hbm, ⟨32, _⟩ => ⟨S100000, .i32⟩
  | .hbm, ⟨33, _⟩ => ⟨S100000, .i32⟩
  | .hbm, ⟨34, _⟩ => ⟨S100000x1, .i32⟩
  | .hbm, ⟨35, _⟩ => ⟨S100000x256, .f32⟩
  | .hbm, ⟨36, _⟩ => ⟨S1x256, .f32⟩
  | .hbm, ⟨37, _⟩ => ⟨S1x1, .f32⟩
  | .hbm, ⟨38, _⟩ => ⟨S100000x1, .f32⟩
  | .local _ .vmem, ⟨0, _⟩ => ⟨S5000x128, .f32⟩
  | .local _ .vmem, ⟨1, _⟩ => ⟨S5000x128, .f32⟩
  | .local _ .vmem, ⟨2, _⟩ => ⟨S128x256, .f32⟩
  | .local _ .vmem, ⟨3, _⟩ => ⟨S1x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S5000x256, .f32⟩
  | .local _ .vmem, ⟨8, _⟩ => ⟨S256x256, .f32⟩
  | .local _ .vmem, ⟨9, _⟩ => ⟨S1x256, .f32⟩
  | .local _ .vmem, ⟨10, _⟩ => ⟨S256x1, .f32⟩
  | .local _ .vmem, ⟨11, _⟩ => ⟨S1x1, .f32⟩
  | .local _ .vmem, ⟨12, _⟩ => ⟨S5000x1, .f32⟩
  | .local _ .vmem, ⟨13, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_v3 : Ref sig .tc := ⟨.hbm, 13, rfl⟩
abbrev main_v4 : Ref sig .tc := ⟨.hbm, 14, rfl⟩
abbrev main_c_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_2 : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S512x128 : S_.BroadcastsInDim S512x128 (![] : Fin 0 → Fin S512x128.rank)
  bcast_S100000_S100000x1_0 : S100000.BroadcastsInDim S100000x1 (![0] : Fin 1 → Fin S100000x1.rank)
  bcast_S_S100000 : S_.BroadcastsInDim S100000 (![] : Fin 0 → Fin S100000.rank)
  shapeCasts_S256_S1x256 : S256.ShapeCasts S1x256
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  bcast_S_S512x256 : S_.BroadcastsInDim S512x256 (![] : Fin 0 → Fin S512x256.rank)
  shapeCasts_S1_S1x1 : S1.ShapeCasts S1x1
  shapeCasts_S5000x256_S5000x256 : S5000x256.ShapeCasts S5000x256
  inb_S256x256_S256x256_0_0 : ∀ a, (![0, 0] : Fin 2 → Nat) a + S256x256.size a ≤ S256x256.size a
  h_S256x256 : 0 < S256x256.numel
  inb_S256x1_S256x1_0_0 : ∀ a, (![0, 0] : Fin 2 → Nat) a + S256x1.size a ≤ S256x1.size a
  h_S256x1 : 0 < S256x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  scatter_S512x128_S100000x1_S100000x128_1_0_0_1_wf : ScatterDims.WF S512x128 S100000x1 S100000x128 [1] [0] [0] 1
  gather_S512x128_S100000x1_S100000x128_1_0_n_n_0_1_1128_wf : GatherDims.WF S512x128 S100000x1 S100000x128 [1] [0] [] [0] [] 1 ![1, 128]
  dot_S5000x128_S128x256_S5000x256_1_0_0_1_n_n_wf : DotDims.WF S5000x128 S128x256 S5000x256 [1] [0] [0] [1] [] []
  scatter_S512x256_S100000x1_S100000x256_1_0_0_1_wf : ScatterDims.WF S512x256 S100000x1 S100000x256 [1] [0] [0] 1
  gather_S512x256_S100000x1_S100000x256_1_0_n_n_0_1_1256_wf : GatherDims.WF S512x256 S100000x1 S100000x256 [1] [0] [] [0] [] 1 ![1, 256]
  dot_S5000x256_S256x256_S5000x256_1_0_0_1_n_n_wf : DotDims.WF S5000x256 S256x256 S5000x256 [1] [0] [0] [1] [] []
  dot_S5000x256_S256x1_S5000x1_1_0_0_1_n_n_wf : DotDims.WF S5000x256 S256x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x256.size a ≤ S100000x256.size a
  hwx0_3 : ∀ i : grid0.Coords, EltTy.bits .f32 = 32 ∨ (Rect.block (s := S100000x256) S5000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S100000x256.size a
  hwx1_0 : ∀ i : grid1.Coords, EltTy.bits .f32 = 32 ∨ (Rect.block (s := S100000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x1.size a ≤ S256x1.size a
  hwx1_3 : ∀ i : grid1.Coords, EltTy.bits .f32 = 32 ∨ (Rect.block (s := S256x1) S256x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x1.size a ≤ S100000x1.size a
  hwx1_5 : ∀ i : grid1.Coords, EltTy.bits .f32 = 32 ∨ (Rect.block (s := S100000x1) S5000x1.size (cc1_transform_5 i) (hinb1_5 i)).WholeWords (EltTy.packing .f32)

variable [Facts₀]

def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def gather_S512x128_S100000x1_S100000x128_1_0_n_n_0_1_1128 : GatherDims S512x128 S100000x1 S100000x128 where
  offsetDims := [1]
  collapsedSliceDims := [0]
  operandBatchingDims := []
  startIndicesBatchingDims := []
  startIndexMap := [0]
  indexVectorDim := 1
  sliceSizes := ![1, 128]
  wf := gather_S512x128_S100000x1_S100000x128_1_0_n_n_0_1_1128_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def scatter_S512x256_S100000x1_S100000x256_1_0_0_1 : ScatterDims S512x256 S100000x1 S100000x256 where
  updateWindowDims := [1]
  insertedWindowDims := [0]
  scatterDimsToOperandDims := [0]
  indexVectorDim := 1
  wf := scatter_S512x256_S100000x1_S100000x256_1_0_0_1_wf
def gather_S512x256_S100000x1_S100000x256_1_0_n_n_0_1_1256 : GatherDims S512x256 S100000x1 S100000x256 where
  offsetDims := [1]
  collapsedSliceDims := [0]
  operandBatchingDims := []
  startIndicesBatchingDims := []
  startIndexMap := [0]
  indexVectorDim := 1
  sliceSizes := ![1, 256]
  wf := gather_S512x256_S100000x1_S100000x256_1_0_n_n_0_1_1256_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def dot_S5000x256_S256x1_S5000x1_1_0_0_1_n_n : DotDims S5000x256 S256x1 S5000x1 where
  lhsContracting := [1]
  rhsContracting := [0]
  lhsNonContracting := [0]
  rhsNonContracting := [1]
  lhsBatch := []
  rhsBatch := []
  wf := dot_S5000x256_S256x1_S5000x1_1_0_0_1_n_n_wf

abbrev win0_0 : Pipeline.Window sig grid0 :=
  Pipeline.Window.ofSpec (Memref.whole main_v9) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S5000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v21) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v22) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S256x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v23) S1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v24) S5000x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S100000 : Shape := ⟨1, ![100000]⟩
abbrev S128x256 : Shape := ⟨2, ![128, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S_ : Shape := ⟨0, ![]⟩
abbrev S512x128 : Shape := ⟨2, ![512, 128]⟩
abbrev S100000x1 : Shape := ⟨2, ![100000, 1]⟩
abbrev S100000x256 : Shape := ⟨2, ![100000, 256]⟩
abbrev S1x256 : Shape := ⟨2, ![1, 256]⟩
abbrev S512x256 : Shape := ⟨2, ![512, 256]⟩
abbrev S1x1 : Shape := ⟨2, ![1, 1]⟩

abbrev nBuf : Space → Nat
  | .hbm => 70
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000, .i32⟩
  | .hbm, ⟨2, _⟩ => ⟨S128x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x1, .f32⟩
  | .hbm, ⟨7, _⟩ => ⟨S1, .f32⟩
  | .hbm, ⟨8, _⟩ => ⟨S_, .f32⟩
  | .hbm, ⟨9, _⟩ => ⟨S512x128, .f32⟩
  | .hbm, ⟨10, _⟩ => ⟨S100000x1, .i32⟩
  | .hbm, ⟨11, _⟩ => ⟨S512x128, .f32⟩
  | .hbm, ⟨12, _⟩ => ⟨S_, .i32⟩
  | .hbm, ⟨13, _⟩ => ⟨S100000, .i32⟩
  | .hbm, ⟨14, _⟩ => ⟨S100000, .i1⟩
  | .hbm, ⟨15, _⟩ => ⟨S_, .i32⟩
  | .hbm, ⟨16, _⟩ => ⟨S100000, .i32⟩
  | .hbm, ⟨17, _⟩ => ⟨S100000, .i32⟩
  | .hbm, ⟨18, _⟩ => ⟨S100000, .i32⟩
  | .hbm, ⟨19, _⟩ => ⟨S100000x1, .i32⟩
  | .hbm, ⟨20, _⟩ => ⟨S100000x128, .f32⟩
  | .hbm, ⟨21, _⟩ => ⟨S100000x256, .f32⟩
  | .hbm, ⟨22, _⟩ => ⟨S1x256, .f32⟩
  | .hbm, ⟨23, _⟩ => ⟨S100000x256, .f32⟩
  | .hbm, ⟨24, _⟩ => ⟨S100000x256, .f32⟩
  | .hbm, ⟨25, _⟩ => ⟨S_, .f32⟩
  | .hbm, ⟨26, _⟩ => ⟨S100000x256, .f32⟩
  | .hbm, ⟨27, _⟩ => ⟨S100000x256, .f32⟩
  | .hbm, ⟨28, _⟩ => ⟨S_, .f32⟩
  | .hbm, ⟨29, _⟩ => ⟨S512x256, .f32⟩
  | .hbm, ⟨30, _⟩ => ⟨S100000x1, .i32⟩
  | .hbm, ⟨31, _⟩ => ⟨S512x256, .f32⟩
  | .hbm, ⟨32, _⟩ => ⟨S_, .i32⟩
  | .hbm, ⟨33, _⟩ => ⟨S100000, .i32⟩
  | .hbm, ⟨34, _⟩ => ⟨S100000, .i1⟩
  | .hbm, ⟨35, _⟩ => ⟨S_, .i32⟩
  | .hbm, ⟨36, _⟩ => ⟨S100000, .i32⟩
  | .hbm, ⟨37, _⟩ => ⟨S100000, .i32⟩
  | .hbm, ⟨38, _⟩ => ⟨S100000, .i32⟩
  | .hbm, ⟨39, _⟩ => ⟨S100000x1, .i32⟩
  | .hbm, ⟨40, _⟩ => ⟨S100000x256, .f32⟩
  | .hbm, ⟨41, _⟩ => ⟨S100000x256, .f32⟩
  | .hbm, ⟨42, _⟩ => ⟨S1x256, .f32⟩
  | .hbm, ⟨43, _⟩ => ⟨S100000x256, .f32⟩
  | .hbm, ⟨44, _⟩ => ⟨S100000x256, .f32⟩
  | .hbm, ⟨45, _⟩ => ⟨S_, .f32⟩
  | .hbm, ⟨46, _⟩ => ⟨S100000x256, .f32⟩
  | .hbm, ⟨47, _⟩ => ⟨S100000x256, .f32⟩
  | .hbm, ⟨48, _⟩ => ⟨S100000x1, .f32⟩
  | .hbm, ⟨49, _⟩ => ⟨S1x1, .f32⟩
  | .hbm, ⟨50, _⟩ => ⟨S100000x1, .f32⟩
  | .hbm, ⟨51, _⟩ => ⟨S100000x1, .f32⟩
  | .hbm, ⟨52, _⟩ => ⟨S_, .f32⟩
  | .hbm, ⟨53, _⟩ => ⟨S100000x1, .f32⟩
  | .hbm, ⟨54, _⟩ => ⟨S100000x1, .f32⟩
  | .hbm, ⟨55, _⟩ => ⟨S100000x1, .f32⟩
  | .hbm, ⟨56, _⟩ => ⟨S100000x1, .f32⟩
  | .hbm, ⟨57, _⟩ => ⟨S100000x1, .i1⟩
  | .hbm, ⟨58, _⟩ => ⟨S100000x1, .f32⟩
  | .hbm, ⟨59, _⟩ => ⟨S100000x1, .f32⟩
  | .hbm, ⟨60, _⟩ => ⟨S100000x1, .f32⟩
  | .hbm, ⟨61, _⟩ => ⟨S100000x1, .f32⟩
  | .hbm, ⟨62, _⟩ => ⟨S100000x1, .f32⟩
  | .hbm, ⟨63, _⟩ => ⟨S100000x1, .f32⟩
  | .hbm, ⟨64, _⟩ => ⟨S100000x1, .f32⟩
  | .hbm, ⟨65, _⟩ => ⟨S100000x1, .f32⟩
  | .hbm, ⟨66, _⟩ => ⟨S_, .f32⟩
  | .hbm, ⟨67, _⟩ => ⟨S100000x1, .f32⟩
  | .hbm, ⟨68, _⟩ => ⟨S100000x1, .f32⟩
  | .hbm, ⟨69, _⟩ => ⟨S100000x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_v3 : Ref sig .tc := ⟨.hbm, 13, rfl⟩
abbrev main_v4 : Ref sig .tc := ⟨.hbm, 14, rfl⟩
abbrev main_c_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_call0_cst : Ref sig .tc := ⟨.hbm, 25, rfl⟩
abbrev main_call0_v0 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_2 : Ref sig .tc := ⟨.hbm, 32, rfl⟩
abbrev main_v18 : Ref sig .tc := ⟨.hbm, 33, rfl⟩
abbrev main_v19 : Ref sig .tc := ⟨.hbm, 34, rfl⟩
abbrev main_c_3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_call1_cst : Ref sig .tc := ⟨.hbm, 45, rfl⟩
abbrev main_call1_v0 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_call2_cst : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_v5 : Ref sig .tc := ⟨.hbm, 58, rfl⟩
abbrev main_call2_v6 : Ref sig .tc := ⟨.hbm, 59, rfl⟩
abbrev main_call2_v7 : Ref sig .tc := ⟨.hbm, 60, rfl⟩
abbrev main_call2_v8 : Ref sig .tc := ⟨.hbm, 61, rfl⟩
abbrev main_call2_v9 : Ref sig .tc := ⟨.hbm, 62, rfl⟩
abbrev main_call2_v10 : Ref sig .tc := ⟨.hbm, 63, rfl⟩
abbrev main_call2_v11 : Ref sig .tc := ⟨.hbm, 64, rfl⟩
abbrev main_v34 : Ref sig .tc := ⟨.hbm, 65, rfl⟩
abbrev main_cst_4 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩

abbrev nD : Nat := 1
abbrev τ : Topo := Topo.v7x

variable {F : FTy → Type} [FloatOps F]

class Facts₀ : Prop where
  bcast_S_S512x128 : S_.BroadcastsInDim S512x128 (![] : Fin 0 → Fin S512x128.rank)
  bcast_S100000_S100000x1_0 : S100000.BroadcastsInDim S100000x1 (![0] : Fin 1 → Fin S100000x1.rank)
  bcast_S_S100000 : S_.BroadcastsInDim S100000 (![] : Fin 0 → Fin S100000.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S_S512x256 : S_.BroadcastsInDim S512x256 (![] : Fin 0 → Fin S512x256.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  scatter_S512x128_S100000x1_S100000x128_1_0_0_1_wf : ScatterDims.WF S512x128 S100000x1 S100000x128 [1] [0] [0] 1
  gather_S512x128_S100000x1_S100000x128_1_0_n_n_0_1_1128_wf : GatherDims.WF S512x128 S100000x1 S100000x128 [1] [0] [] [0] [] 1 ![1, 128]
  dot_S100000x128_S128x256_S100000x256_1_0_0_1_n_n_wf : DotDims.WF S100000x128 S128x256 S100000x256 [1] [0] [0] [1] [] []
  scatter_S512x256_S100000x1_S100000x256_1_0_0_1_wf : ScatterDims.WF S512x256 S100000x1 S100000x256 [1] [0] [0] 1
  gather_S512x256_S100000x1_S100000x256_1_0_n_n_0_1_1256_wf : GatherDims.WF S512x256 S100000x1 S100000x256 [1] [0] [] [0] [] 1 ![1, 256]
  dot_S100000x256_S256x256_S100000x256_1_0_0_1_n_n_wf : DotDims.WF S100000x256 S256x256 S100000x256 [1] [0] [0] [1] [] []
  dot_S100000x256_S256x1_S100000x1_1_0_0_1_n_n_wf : DotDims.WF S100000x256 S256x1 S100000x1 [1] [0] [0] [1] [] []

variable [Facts₀]

def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def gather_S512x128_S100000x1_S100000x128_1_0_n_n_0_1_1128 : GatherDims S512x128 S100000x1 S100000x128 where
  offsetDims := [1]
  collapsedSliceDims := [0]
  operandBatchingDims := []
  startIndicesBatchingDims := []
  startIndexMap := [0]
  indexVectorDim := 1
  sliceSizes := ![1, 128]
  wf := gather_S512x128_S100000x1_S100000x128_1_0_n_n_0_1_1128_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def scatter_S512x256_S100000x1_S100000x256_1_0_0_1 : ScatterDims S512x256 S100000x1 S100000x256 where
  updateWindowDims := [1]
  insertedWindowDims := [0]
  scatterDimsToOperandDims := [0]
  indexVectorDim := 1
  wf := scatter_S512x256_S100000x1_S100000x256_1_0_0_1_wf
def gather_S512x256_S100000x1_S100000x256_1_0_n_n_0_1_1256 : GatherDims S512x256 S100000x1 S100000x256 where
  offsetDims := [1]
  collapsedSliceDims := [0]
  operandBatchingDims := []
  startIndicesBatchingDims := []
  startIndexMap := [0]
  indexVectorDim := 1
  sliceSizes := ![1, 256]
  wf := gather_S512x256_S100000x1_S100000x256_1_0_n_n_0_1_1256_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def dot_S100000x256_S256x1_S100000x1_1_0_0_1_n_n : DotDims S100000x256 S256x1 S100000x1 where
  lhsContracting := [1]
  rhsContracting := [0]
  lhsNonContracting := [0]
  rhsNonContracting := [1]
  lhsBatch := []
  rhsBatch := []
  wf := dot_S100000x256_S256x1_S100000x1_1_0_0_1_n_n_wf

class Facts : Prop extends Facts₀ where

variable [Facts]
-- ==== Proof.Layer1Payload.lean ====
/-
  The first dense layer's block body, read at an index.

  One grid point of the first region computes, from a 5000-row block `a` of the aggregated features, the weight
  matrix `w` and the bias row `b`, the block  max (a · w + b, 0).  At the ideal instance a change of float
  format is the identity and the matrix unit's product into a zero accumulator is the plain sum over the
  contracted axis, so the entry at row `p`, column `q` is
      max ((∑ k, a[p, k] · w[k, q]) + b[0, q], 0).
-/
import proofs.«180237_j2241972928775_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Layer1

open Cert.KernelIdeal Cert.KernelIdeal.Gen Idealize.ShloMosaic Idealize.ShloMosaic.TcCoe Idealize.ShloMosaic.ValueIdx

/-! ## The product's operand indices: output entry (p, q) and contraction index k read a[p, k] and w[k, q] -/

theorem lhs_axis0 (i : S5000x256.Idx) (q : dot_S5000x128_S128x256_S5000x256_1_0_0_1_n_n.contr.Idx) :
    (dot_S5000x128_S128x256_S5000x256_1_0_0_1_n_n.lhsIdx i q 0).val = (i 0).val := by
  unfold DotDims.lhsIdx
  rw [dif_neg (show ¬(0 : Fin S5000x128.rank) ∈ dot_S5000x128_S128x256_S5000x256_1_0_0_1_n_n.lhsBatch by decide), dif_pos (show (0 : Fin S5000x128.rank) ∈ dot_S5000x128_S128x256_S5000x256_1_0_0_1_n_n.lhsNonContracting by decide)]
  rfl
theorem lhs_axis1 (i : S5000x256.Idx) (q : dot_S5000x128_S128x256_S5000x256_1_0_0_1_n_n.contr.Idx) :
    (dot_S5000x128_S128x256_S5000x256_1_0_0_1_n_n.lhsIdx i q 1).val = (q ⟨0, by decide⟩).val :=
  dot_S5000x128_S128x256_S5000x256_1_0_0_1_n_n.lhsIdx_val_of_single rfl i q
theorem rhs_axis0 (i : S5000x256.Idx) (q : dot_S5000x128_S128x256_S5000x256_1_0_0_1_n_n.contr.Idx) :
    (dot_S5000x128_S128x256_S5000x256_1_0_0_1_n_n.rhsIdx i q 0).val = (q ⟨0, by decide⟩).val :=
  dot_S5000x128_S128x256_S5000x256_1_0_0_1_n_n.rhsIdx_val_of_single rfl i q
theorem rhs_axis1 (i : S5000x256.Idx) (q : dot_S5000x128_S128x256_S5000x256_1_0_0_1_n_n.contr.Idx) :
    (dot_S5000x128_S128x256_S5000x256_1_0_0_1_n_n.rhsIdx i q 1).val = (i 1).val := by
  unfold DotDims.rhsIdx
  rw [dif_neg (show ¬(1 : Fin S128x256.rank) ∈ dot_S5000x128_S128x256_S5000x256_1_0_0_1_n_n.rhsBatch by decide), dif_pos (show (1 : Fin S128x256.rank) ∈ dot_S5000x128_S128x256_S5000x256_1_0_0_1_n_n.rhsNonContracting by decide)]
  rfl

/-- Row `i 0` of the left operand at column `k`. -/
abbrev rowAt (i : S5000x256.Idx) (k : Fin 128) : S5000x128.Idx := fun a => match a with
  | ⟨0, _⟩ => ⟨(i 0).val, (i 0).isLt⟩
  | ⟨1, _⟩ => ⟨k.val, k.isLt⟩
/-- Column `i 1` of the right operand at row `k`. -/
abbrev colAt (i : S5000x256.Idx) (k : Fin 128) : S128x256.Idx := fun a => match a with
  | ⟨0, _⟩ => ⟨k.val, k.isLt⟩
  | ⟨1, _⟩ => ⟨(i 1).val, (i 1).isLt⟩

/-- The block product into the zero accumulator is the sum over the 128 contracted columns. -/
theorem product_apply {φ₁ φ₂ : FTy} (l : FVec Ideal S5000x128 φ₁) (r : FVec Ideal S128x256 φ₂) (i : S5000x256.Idx) :
    matmul (F := Ideal) dot_S5000x128_S128x256_S5000x256_1_0_0_1_n_n none l r (constant (F := Ideal) S5000x256 .f32 0x00000000#32) i
      = ∑ k : Fin 128, l (rowAt i k) * r (colAt i k) := by
  show FloatOps.matmul (F := Ideal) dot_S5000x128_S128x256_S5000x256_1_0_0_1_n_n none l r (constant (F := Ideal) S5000x256 .f32 0x00000000#32) i = _
  rw [Ideal.matmul_constant_zero_apply, ← Equiv.sum_comp (ValueIdx.contrEquiv1 dot_S5000x128_S128x256_S5000x256_1_0_0_1_n_n 128 rfl rfl).symm]
  refine Finset.sum_congr rfl fun k _ => ?_
  have hk := ValueIdx.contrEquiv1_symm_val dot_S5000x128_S128x256_S5000x256_1_0_0_1_n_n 128 rfl rfl k
  have el : dot_S5000x128_S128x256_S5000x256_1_0_0_1_n_n.lhsIdx i ((ValueIdx.contrEquiv1 dot_S5000x128_S128x256_S5000x256_1_0_0_1_n_n 128 rfl rfl).symm k) = rowAt i k := funext fun a => Fin.ext (by
    match a with
    | ⟨0, _⟩ => exact lhs_axis0 _ _
    | ⟨1, _⟩ => exact (lhs_axis1 _ _).trans hk)
  have er : dot_S5000x128_S128x256_S5000x256_1_0_0_1_n_n.rhsIdx i ((ValueIdx.contrEquiv1 dot_S5000x128_S128x256_S5000x256_1_0_0_1_n_n 128 rfl rfl).symm k) = colAt i k := funext fun a => Fin.ext (by
    match a with
    | ⟨0, _⟩ => exact (rhs_axis0 _ _).trans hk
    | ⟨1, _⟩ => exact rhs_axis1 _ _)
  rw [el, er]

/-- The bias row broadcast down the block's rows reads the row's entry in the same column. -/
abbrev biasAt (i : S5000x256.Idx) : S1x256.Idx := fun a => match a with
  | ⟨0, _⟩ => ⟨0, Nat.one_pos⟩
  | ⟨1, _⟩ => ⟨(i 1).val, (i 1).isLt⟩

theorem bias_apply (b : FVec Ideal S1x256 .f32) (i : S5000x256.Idx) :
    broadcastTo S5000x256 b broadcasts_S1x256_S5000x256 i = b (biasAt i) :=
  broadcastTo_apply b broadcasts_S1x256_S5000x256 i (biasAt i) (fun a => match a with
    | ⟨0, _⟩ => by show 0 = if (1 : Nat) = 1 then 0 else (i 0).val; rw [if_pos rfl]
    | ⟨1, _⟩ => by show (i 1).val = if (256 : Nat) = 1 then 0 else (i 1).val; rw [if_neg (by decide)])

/-- THE BLOCK BODY AT AN ENTRY: max ((∑ k, a[p, k] · w[k, q]) + b[0, q], 0). -/
theorem payload_apply (a : Vec Ideal S5000x128 .f32) (w : Vec Ideal S128x256 .f32) (b : Vec Ideal S1x256 .f32) (i : S5000x256.Idx) :
    k0_pay1 (F := Ideal) a w b i
      = max ((∑ k : Fin 128, a (rowAt i k) * w (colAt i k)) + b (biasAt i)) (Ideal.ofBits .f32 0x00000000#32) := by
  unfold k0_pay1
  show max (matmul (F := Ideal) dot_S5000x128_S128x256_S5000x256_1_0_0_1_n_n none
        (truncf (F := Ideal) .bf16 (shapeCast S5000x128 a shapeCasts_S5000x128_S5000x128) bitsLt_bf16_f32) (truncf (F := Ideal) .bf16 w bitsLt_bf16_f32)
        (constant (F := Ideal) S5000x256 .f32 0x00000000#32) i
      + broadcastTo S5000x256 (shapeCast S1x256 b shapeCasts_S1x256_S1x256) broadcasts_S1x256_S5000x256 i) (Ideal.ofBits .f32 0x00000000#32) = _
  rw [product_apply, bias_apply, shapeCast_self, shapeCast_self]
  rfl

end Cert.KernelIdeal.Layer1

end
-- ==== Proof.Layer1Array.lean ====
/-
  The first region's output array: the hidden layer  h = relu (agg · W1 + b1)  as ONE function of the arrays the
  region is entered with.

  The region runs twenty grid points; point `t` fetches rows 5000·t … 5000·t + 4999 of the aggregated features,
  the whole weight matrix and the whole bias row, and writes back rows 5000·t … 5000·t + 4999 of the output, all 256
  columns. An output entry (r, q) therefore depends on row r of the features, column q of the weights and entry q of
  the bias only:  h[r, q] = max ((∑ k, agg[r, k] · W1[k, q]) + b1[q], 0) — which is what the reference's hidden layer
  holds at (r, q) when the region's three input arrays are the reference's aggregate, the weights and the bias row.
  The twenty row blocks tile the array (row r lies in block r / 5000), so the array after the run IS that function.
-/
import proofs.«180237_j2241972928775_1_alg».proof.Proof.Gen.KernelIdeal.Frame
import proofs.«180237_j2241972928775_1_alg».proof.Proof.Gen.ReferenceIdeal.Read
import proofs.«180237_j2241972928775_1_alg».proof.Proof.Layer1Payload

set_option maxRecDepth 16384

noncomputable section

namespace Cert.KernelIdeal.Layer1

open Cert.KernelIdeal Cert.KernelIdeal.Gen Idealize.ShloMosaic Idealize.ShloMosaic.TcCoe Idealize.ShloMosaic.ValueIdx Idealize.SL.Sem
open Idealize.ShloMosaic.Pipeline (Dat)
open Cert.ReferenceIdeal.Read

/-! ## The reference's hidden layer at an index -/

/-- relu (agg · W1 + b1) at (r, q): the 128-term sum along row r and column q, plus the bias entry, against zero. -/
theorem hidden_at (x0 : (⟨Cert.ReferenceIdeal.S100000x128, .f32⟩ : BufTy).Contents (Elt Ideal)) (x1 : (⟨Cert.ReferenceIdeal.S100000, .i32⟩ : BufTy).Contents (Elt Ideal))
    (x2 : (⟨Cert.ReferenceIdeal.S128x256, .f32⟩ : BufTy).Contents (Elt Ideal)) (x3 : (⟨Cert.ReferenceIdeal.S256, .f32⟩ : BufTy).Contents (Elt Ideal)) (I : Cert.ReferenceIdeal.S100000x256.Idx) :
    val_main_v14 (F := Ideal) x0 x1 x2 x3 I
      = max ((∑ k : Fin 128, val_main_v9 (F := Ideal) x0 x1 (lidx_main_v10 I k) * x2 (ridx_main_v10 I k)) + val_main_v11 (F := Ideal) x3 (idx_main_v12 I)) (Ideal.ofBits .f32 0x00000000#32) := by
  rw [val_main_v14_apply, val_main_v13_apply, val_main_v10_apply, val_main_v12_apply, val_main_call0_v0_apply, val_main_call0_cst_apply]
  rfl

/-! ## Where each window's block sits -/

theorem hz : (![0, 0] : Fin 2 → Nat) = fun _ => 0 := funext fun a => by fin_cases a <;> rfl

/-- The block indices over the grid: the feature window moves down the rows with the output window, the weight and
    bias windows stay at the origin, and the output's column block is always the first. -/
theorem idx_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 :=
  (by decide +kernel : ∀ t : Fin grid0.N, _)

/-- Every row block is some point's. -/
theorem idx_onto : ∀ q : Fin 20, ∃ t : Fin cfg0.N, win0_3.index t = ![q.val, 0] :=
  (by decide +kernel : ∀ q : Fin 20, ∃ t : Fin grid0.N, win0_3.index t = ![q.val, 0])

section Region
variable (V : (c : Dev nD) → (b : Ref sig .tc) → Buf (Elt Ideal) ((c : Thread nD τ).loc b)) (c : Dev nD)
variable (x0 : (⟨Cert.ReferenceIdeal.S100000x128, .f32⟩ : BufTy).Contents (Elt Ideal)) (x1 : (⟨Cert.ReferenceIdeal.S100000, .i32⟩ : BufTy).Contents (Elt Ideal))
    (x2 : (⟨Cert.ReferenceIdeal.S128x256, .f32⟩ : BufTy).Contents (Elt Ideal)) (x3 : (⟨Cert.ReferenceIdeal.S256, .f32⟩ : BufTy).Contents (Elt Ideal))

/-- Entry (p, k) of the feature block at point `t` is entry (5000·t + p, k) of the features: the entry the
    reference's product reads for output row 5000·t + p. -/
theorem features_read (hA : (V c main_v9 : S100000x128.Idx → EReal) = val_main_v9 (F := Ideal) x0 x1) (t : Fin cfg0.N) (j : S5000x256.Idx) (k : Fin 128) :
    iblk0 V c 0 t (rowAt j k) = val_main_v9 (F := Ideal) x0 x1 (lidx_main_v10 (((cfg0.win 3).blk t).view.emb j) k) := by
  obtain ⟨e0, e1, e2, e3, e4, e5, e6⟩ := idx_facts t
  show V c main_v9 (((cfg0.win 0).blk t).view.emb (rowAt j k)) = _
  rw [hA]
  refine congrArg (val_main_v9 (F := Ideal) x0 x1) (funext fun a => Fin.ext ?_)
  match a with
  | ⟨0, _⟩ => show win0_0.index t (0 : Fin 2) * 5000 + 1 * (j 0).val = win0_3.index t (0 : Fin 2) * 5000 + 1 * (j 0).val; omega
  | ⟨1, _⟩ => show win0_0.index t (1 : Fin 2) * 128 + 1 * k.val = k.val; omega

/-- Entry (k, q) of the weight block is entry (k, q) of the weights. -/
theorem weights_read (hW : (V c main_arg2 : S128x256.Idx → EReal) = x2) (t : Fin cfg0.N) (j : S5000x256.Idx) (k : Fin 128) :
    iblk0 V c 1 t (colAt j k) = x2 (ridx_main_v10 (((cfg0.win 3).blk t).view.emb j) k) := by
  obtain ⟨e0, e1, e2, e3, e4, e5, e6⟩ := idx_facts t
  show V c main_arg2 (((cfg0.win 1).blk t).view.emb (colAt j k)) = _
  rw [hW]
  refine congrArg x2 (funext fun a => Fin.ext ?_)
  match a with
  | ⟨0, _⟩ => show win0_1.index t (0 : Fin 2) * 128 + 1 * k.val = k.val; omega
  | ⟨1, _⟩ => show win0_1.index t (1 : Fin 2) * 256 + 1 * (j 1).val = win0_3.index t (1 : Fin 2) * 256 + 1 * (j 1).val; omega

/-- Entry (0, q) of the bias block is the bias row's entry q. -/
theorem bias_read (hB : (V c main_v10 : S1x256.Idx → EReal) = val_main_v11 (F := Ideal) x3) (t : Fin cfg0.N) (j : S5000x256.Idx) :
    iblk0 V c 2 t (biasAt j) = val_main_v11 (F := Ideal) x3 (idx_main_v12 (((cfg0.win 3).blk t).view.emb j)) := by
  obtain ⟨e0, e1, e2, e3, e4, e5, e6⟩ := idx_facts t
  show V c main_v10 (((cfg0.win 2).blk t).view.emb (biasAt j)) = _
  rw [hB]
  refine congrArg (val_main_v11 (F := Ideal) x3) (funext fun a => Fin.ext ?_)
  match a with
  | ⟨0, _⟩ => show win0_2.index t (0 : Fin 2) * 1 + 1 * 0 = 0; omega
  | ⟨1, _⟩ => show win0_2.index t (1 : Fin 2) * 256 + 1 * (j 1).val = win0_3.index t (1 : Fin 2) * 256 + 1 * (j 1).val; omega

/-- WHAT POINT `t` WRITES BACK is block `t` of the reference's hidden layer. -/
theorem flushed_eq (hA : (V c main_v9 : S100000x128.Idx → EReal) = val_main_v9 (F := Ideal) x0 x1) (hW : (V c main_arg2 : S128x256.Idx → EReal) = x2)
    (hB : (V c main_v10 : S1x256.Idx → EReal) = val_main_v11 (F := Ideal) x3) (t : Fin cfg0.N) :
    (dat0 V c).flushed 3 t = ((cfg0.win 3).blk t).view.read (Elt Ideal) (val_main_v14 (F := Ideal) x0 x1 x2 x3) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x256) hz, View.ld_unit_zero (S := S1x256) hz]
  funext j
  show k0_pay1 (F := Ideal) (iblk0 V c 0 t) (iblk0 V c 1 t) (iblk0 V c 2 t) j = val_main_v14 (F := Ideal) x0 x1 x2 x3 (((cfg0.win 3).blk t).view.emb j)
  refine (payload_apply (iblk0 V c 0 t) (iblk0 V c 1 t) (iblk0 V c 2 t) j).trans ?_
  rw [hidden_at, bias_read V c x3 hB t j]
  refine congrArg (fun s => max (s + _) _) (Finset.sum_congr rfl fun k _ => ?_)
  rw [features_read V c x0 x1 hA t j k, weights_read V c x2 hW t j k]

/-- An index of the output array is in point `t`'s block iff each coordinate is in the block's range on its axis. -/
theorem mem_blk (t : Fin cfg0.N) (i : S100000x256.Idx) :
    i ∈ ((cfg0.win 3).blk t).view.set ↔ ∀ a : Fin 2, win0_3.index t a * S5000x256.size a ≤ (i a).val ∧ (i a).val < win0_3.index t a * S5000x256.size a + S5000x256.size a := by
  show i ∈ ((View.whole main_v11).slice (win0_3.rect t)).set ↔ _
  rw [View.set_slice_whole, Rect.mem_set_unit]
  exact Iff.rfl

/-- The row blocks tile the array: row r is in the block of point r / 5000. -/
theorem cover (i : S100000x256.Idx) : ∃ t : Fin cfg0.N, (cfg0.win 3).flush t = true ∧ i ∈ ((cfg0.win 3).blk t).view.set := by
  have hi0 : (i 0).val < 100000 := (i 0).isLt
  have hi1 : (i 1).val < 256 := (i 1).isLt
  obtain ⟨t, ht⟩ := idx_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 256 ≤ (i 1).val ∧ (i 1).val < win0_3.index t (1 : Fin 2) * 256 + 256; omega

/-- THE OUTPUT ARRAY AFTER THE REGION is the reference's hidden layer, whenever the region is entered with the
    reference's aggregate, the weights and the bias row in its three input arrays. -/
theorem hidden_array (hA : (V c main_v9 : S100000x128.Idx → EReal) = val_main_v9 (F := Ideal) x0 x1) (hW : (V c main_arg2 : S128x256.Idx → EReal) = x2)
    (hB : (V c main_v10 : S1x256.Idx → EReal) = val_main_v11 (F := Ideal) x3) :
    (dat0 V c).arrAt 3 cfg0.N = val_main_v14 (F := Ideal) x0 x1 x2 x3 :=
  (dat0 V c).arrAt_eq_of_cover 3 (val_main_v14 (F := Ideal) x0 x1 x2 x3) (fun t _ => flushed_eq V c x0 x1 x2 x3 hA hW hB t) cover

end Region

end Cert.KernelIdeal.Layer1

end
-- ==== Proof.HeadPayload.lean ====
/-
  The second region's block body, read at an index.

  One grid point computes, from a 5000-row block `a` of the second aggregate, the weights `w2`, the bias row `b2`, the
  head's weight column `wc` and its bias `bc`:  the hidden block  g = max (a · w2 + b2, 0),  the pre-activation
  c = g · wc + bc  (one column), and the confidence  sp / (1 + sp)  with  sp = logaddexp (c, 0), which the program spells
  max (c, 0) + log1p (exp (0 − |c − 0|))  behind a guard  (c − 0) ≠ (c − 0)  that is never taken over the extended reals.
  At the ideal instance the format changes are the identity and each product into a zero accumulator is the plain sum, so the
  entry in row `p` is the scalar function `confidence` of
      (∑ k, max ((∑ j, a[p, j] · w2[j, k]) + b2[0, k], 0) · wc[k, 0]) + bc[0, 0].
-/
import proofs.«180237_j2241972928775_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Head

open Cert.KernelIdeal Cert.KernelIdeal.Gen Idealize.ShloMosaic Idealize.ShloMosaic.TcCoe Idealize.ShloMosaic.ValueIdx

/-! ## The scalar tail: the confidence of a pre-activation -/

/-- logaddexp (c, 0) as both programs spell it: under the guard `(c − 0) ≠ (c − 0)` the sum `c + 0`, otherwise
    max (c, 0) + log (1 + exp (−|c − 0|)). -/
def softplus (c : EReal) : EReal :=
  Scalar.select (Ideal.cmp .une (c - Ideal.ofBits .f32 0x00000000#32) (c - Ideal.ofBits .f32 0x00000000#32))
    (c + Ideal.ofBits .f32 0x00000000#32)
    (max c (Ideal.ofBits .f32 0x00000000#32)
      + Ideal.log1p (Ideal.exp (-(FloatOps.absf (F := Ideal) (φ := .f32) (c - Ideal.ofBits .f32 0x00000000#32)))))

/-- sp / (1 + sp) at sp = softplus c. -/
def confidence (c : EReal) : EReal :=
  Ideal.div (softplus c) (Ideal.ofBits .f32 0x3F800000#32 + softplus c)

/-- The block body's own spelling of the tail, in the body's operations: the guard is the ordered `≠` and the
    negation is `0 − ·`. -/
def confidenceBody (x : EReal) : EReal :=
  FloatOps.divf (F := Ideal) (φ := .f32)
    (Scalar.select (FloatOps.cmpf (F := Ideal) (φ := .f32) .one (FloatOps.subf (F := Ideal) (φ := .f32) x (Scalar.ofBits (F := Ideal) .f32 0x00000000#32)) (FloatOps.subf (F := Ideal) (φ := .f32) x (Scalar.ofBits (F := Ideal) .f32 0x00000000#32)))
      (FloatOps.addf (F := Ideal) (φ := .f32) x (Scalar.ofBits (F := Ideal) .f32 0x00000000#32))
      (FloatOps.addf (F := Ideal) (φ := .f32) (FloatOps.maximumf (F := Ideal) (φ := .f32) x (Scalar.ofBits (F := Ideal) .f32 0x00000000#32))
        (FloatOps.log1p (F := Ideal) (φ := .f32) (FloatOps.exp (F := Ideal) (φ := .f32) (FloatOps.subf (F := Ideal) (φ := .f32) (Scalar.ofBits (F := Ideal) .f32 0x00000000#32)
          (FloatOps.absf (F := Ideal) (φ := .f32) (FloatOps.subf (F := Ideal) (φ := .f32) x (Scalar.ofBits (F := Ideal) .f32 0x00000000#32))))))))
    (FloatOps.addf (F := Ideal) (φ := .f32) (Scalar.ofBits (F := Ideal) .f32 0x3F800000#32)
      (Scalar.select (FloatOps.cmpf (F := Ideal) (φ := .f32) .one (FloatOps.subf (F := Ideal) (φ := .f32) x (Scalar.ofBits (F := Ideal) .f32 0x00000000#32)) (FloatOps.subf (F := Ideal) (φ := .f32) x (Scalar.ofBits (F := Ideal) .f32 0x00000000#32)))
        (FloatOps.addf (F := Ideal) (φ := .f32) x (Scalar.ofBits (F := Ideal) .f32 0x00000000#32))
        (FloatOps.addf (F := Ideal) (φ := .f32) (FloatOps.maximumf (F := Ideal) (φ := .f32) x (Scalar.ofBits (F := Ideal) .f32 0x00000000#32))
          (FloatOps.log1p (F := Ideal) (φ := .f32) (FloatOps.exp (F := Ideal) (φ := .f32) (FloatOps.subf (F := Ideal) (φ := .f32) (Scalar.ofBits (F := Ideal) .f32 0x00000000#32)
            (FloatOps.absf (F := Ideal) (φ := .f32) (FloatOps.subf (F := Ideal) (φ := .f32) x (Scalar.ofBits (F := Ideal) .f32 0x00000000#32)))))))))

/-- The two spellings are one function: nothing is unordered over the extended reals, so the ordered and the unordered
    `≠` are the same test, and `0 − x = −x`. -/
theorem confidenceBody_eq (x : EReal) : confidenceBody x = confidence x := by
  unfold confidenceBody confidence softplus
  rw [show Scalar.ofBits (F := Ideal) .f32 0x00000000#32 = Ideal.ofBits .f32 0x00000000#32 from rfl,
    show Scalar.ofBits (F := Ideal) .f32 0x3F800000#32 = Ideal.ofBits .f32 0x3F800000#32 from rfl]
  simp only [Ideal.divf_def, Ideal.addf_def, Ideal.subf_def, Ideal.maximumf_def, Ideal.exp_def, Ideal.log1p_def, Ideal.cmpf_def]
  rw [Ideal.ofBits_zero_f32, sub_eq_add_neg (0 : EReal), zero_add]
  rfl

/-- The body's tail on a whole column: its operations from the pre-activation on, in its own words. -/
def tailColumn (c : FVec Ideal S5000x1 .f32) : FVec Ideal S5000x1 .f32 :=
  divf (F := Ideal)
    (select (cmpf (F := Ideal) .one (subf (F := Ideal) c (broadcast S5000x1 (Scalar.ofBits (F := Ideal) .f32 0x00000000#32))) (subf (F := Ideal) c (broadcast S5000x1 (Scalar.ofBits (F := Ideal) .f32 0x00000000#32))))
      (addf (F := Ideal) c (broadcast S5000x1 (Scalar.ofBits (F := Ideal) .f32 0x00000000#32)))
      (addf (F := Ideal) (maximumf (F := Ideal) c (broadcast S5000x1 (Scalar.ofBits (F := Ideal) .f32 0x00000000#32)))
        (log1p (F := Ideal) (exp (F := Ideal) (subf (F := Ideal) (broadcast S5000x1 (Scalar.ofBits (F := Ideal) .f32 0x00000000#32))
          (absf (F := Ideal) (subf (F := Ideal) c (broadcast S5000x1 (Scalar.ofBits (F := Ideal) .f32 0x00000000#32)))))))))
    (addf (F := Ideal) (broadcast S5000x1 (Scalar.ofBits (F := Ideal) .f32 0x3F800000#32))
      (select (cmpf (F := Ideal) .one (subf (F := Ideal) c (broadcast S5000x1 (Scalar.ofBits (F := Ideal) .f32 0x00000000#32))) (subf (F := Ideal) c (broadcast S5000x1 (Scalar.ofBits (F := Ideal) .f32 0x00000000#32))))
        (addf (F := Ideal) c (broadcast S5000x1 (Scalar.ofBits (F := Ideal) .f32 0x00000000#32)))
        (addf (F := Ideal) (maximumf (F := Ideal) c (broadcast S5000x1 (Scalar.ofBits (F := Ideal) .f32 0x00000000#32)))
          (log1p (F := Ideal) (exp (F := Ideal) (subf (F := Ideal) (broadcast S5000x1 (Scalar.ofBits (F := Ideal) .f32 0x00000000#32))
            (absf (F := Ideal) (subf (F := Ideal) c (broadcast S5000x1 (Scalar.ofBits (F := Ideal) .f32 0x00000000#32))))))))))

/-- Entry by entry the column tail is the scalar tail: every operation in it acts on each entry by itself. -/
theorem tailColumn_apply (c : FVec Ideal S5000x1 .f32) (i : S5000x1.Idx) : tailColumn c i = confidenceBody (c i) := rfl

/-! ## The first product (5000×256 by 256×256): entry (p, k) and contraction index j read a[p, j] and w2[j, k] -/

theorem hid_lhs_axis0 (i : S5000x256.Idx) (q : dot_S5000x256_S256x256_S5000x256_1_0_0_1_n_n.contr.Idx) :
    (dot_S5000x256_S256x256_S5000x256_1_0_0_1_n_n.lhsIdx i q 0).val = (i 0).val := by
  unfold DotDims.lhsIdx
  rw [dif_neg (show ¬(0 : Fin S5000x256.rank) ∈ dot_S5000x256_S256x256_S5000x256_1_0_0_1_n_n.lhsBatch by decide), dif_pos (show (0 : Fin S5000x256.rank) ∈ dot_S5000x256_S256x256_S5000x256_1_0_0_1_n_n.lhsNonContracting by decide)]
  rfl
theorem hid_lhs_axis1 (i : S5000x256.Idx) (q : dot_S5000x256_S256x256_S5000x256_1_0_0_1_n_n.contr.Idx) :
    (dot_S5000x256_S256x256_S5000x256_1_0_0_1_n_n.lhsIdx i q 1).val = (q ⟨0, by decide⟩).val :=
  dot_S5000x256_S256x256_S5000x256_1_0_0_1_n_n.lhsIdx_val_of_single rfl i q
theorem hid_rhs_axis0 (i : S5000x256.Idx) (q : dot_S5000x256_S256x256_S5000x256_1_0_0_1_n_n.contr.Idx) :
    (dot_S5000x256_S256x256_S5000x256_1_0_0_1_n_n.rhsIdx i q 0).val = (q ⟨0, by decide⟩).val :=
  dot_S5000x256_S256x256_S5000x256_1_0_0_1_n_n.rhsIdx_val_of_single rfl i q
theorem hid_rhs_axis1 (i : S5000x256.Idx) (q : dot_S5000x256_S256x256_S5000x256_1_0_0_1_n_n.contr.Idx) :
    (dot_S5000x256_S256x256_S5000x256_1_0_0_1_n_n.rhsIdx i q 1).val = (i 1).val := by
  unfold DotDims.rhsIdx
  rw [dif_neg (show ¬(1 : Fin S256x256.rank) ∈ dot_S5000x256_S256x256_S5000x256_1_0_0_1_n_n.rhsBatch by decide), dif_pos (show (1 : Fin S256x256.rank) ∈ dot_S5000x256_S256x256_S5000x256_1_0_0_1_n_n.rhsNonContracting by decide)]
  rfl

/-- Row `i 0` of the aggregate block at column `j`. -/
abbrev aggAt (i : S5000x256.Idx) (j : Fin 256) : S5000x256.Idx := fun a => match a with
  | ⟨0, _⟩ => ⟨(i 0).val, (i 0).isLt⟩
  | ⟨1, _⟩ => ⟨j.val, j.isLt⟩
/-- Column `i 1` of the weights at row `j`. -/
abbrev w2At (i : S5000x256.Idx) (j : Fin 256) : S256x256.Idx := fun a => match a with
  | ⟨0, _⟩ => ⟨j.val, j.isLt⟩
  | ⟨1, _⟩ => ⟨(i 1).val, (i 1).isLt⟩
/-- The bias row's entry in column `i 1`. -/
abbrev b2At (i : S5000x256.Idx) : S1x256.Idx := fun a => match a with
  | ⟨0, _⟩ => ⟨0, Nat.one_pos⟩
  | ⟨1, _⟩ => ⟨(i 1).val, (i 1).isLt⟩

theorem hid_product_apply {φ₁ φ₂ : FTy} (l : FVec Ideal S5000x256 φ₁) (r : FVec Ideal S256x256 φ₂) (i : S5000x256.Idx) :
    matmul (F := Ideal) dot_S5000x256_S256x256_S5000x256_1_0_0_1_n_n none l r (constant (F := Ideal) S5000x256 .f32 0x00000000#32) i
      = ∑ j : Fin 256, l (aggAt i j) * r (w2At i j) := by
  show FloatOps.matmul (F := Ideal) dot_S5000x256_S256x256_S5000x256_1_0_0_1_n_n none l r (constant (F := Ideal) S5000x256 .f32 0x00000000#32) i = _
  rw [Ideal.matmul_constant_zero_apply, ← Equiv.sum_comp (ValueIdx.contrEquiv1 dot_S5000x256_S256x256_S5000x256_1_0_0_1_n_n 256 rfl rfl).symm]
  refine Finset.sum_congr rfl fun k _ => ?_
  have hk := ValueIdx.contrEquiv1_symm_val dot_S5000x256_S256x256_S5000x256_1_0_0_1_n_n 256 rfl rfl k
  have el : dot_S5000x256_S256x256_S5000x256_1_0_0_1_n_n.lhsIdx i ((ValueIdx.contrEquiv1 dot_S5000x256_S256x256_S5000x256_1_0_0_1_n_n 256 rfl rfl).symm k) = aggAt i k := funext fun a => Fin.ext (by
    match a with
    | ⟨0, _⟩ => exact hid_lhs_axis0 _ _
    | ⟨1, _⟩ => exact (hid_lhs_axis1 _ _).trans hk)
  have er : dot_S5000x256_S256x256_S5000x256_1_0_0_1_n_n.rhsIdx i ((ValueIdx.contrEquiv1 dot_S5000x256_S256x256_S5000x256_1_0_0_1_n_n 256 rfl rfl).symm k) = w2At i k := funext fun a => Fin.ext (by
    match a with
    | ⟨0, _⟩ => exact (hid_rhs_axis0 _ _).trans hk
    | ⟨1, _⟩ => exact hid_rhs_axis1 _ _)
  rw [el, er]

theorem b2_apply (b : FVec Ideal S1x256 .f32) (i : S5000x256.Idx) :
    broadcastTo S5000x256 b broadcasts_S1x256_S5000x256 i = b (b2At i) :=
  broadcastTo_apply b broadcasts_S1x256_S5000x256 i (b2At i) (fun a => match a with
    | ⟨0, _⟩ => by show 0 = if (1 : Nat) = 1 then 0 else (i 0).val; rw [if_pos rfl]
    | ⟨1, _⟩ => by show (i 1).val = if (256 : Nat) = 1 then 0 else (i 1).val; rw [if_neg (by decide)])

/-- The hidden block  max (a · w2 + b2, 0). -/
def hiddenBlock (a : Vec Ideal S5000x256 .f32) (w2 : Vec Ideal S256x256 .f32) (b2 : Vec Ideal S1x256 .f32) : FVec Ideal S5000x256 .f32 :=
  maximumf (F := Ideal)
    (addf (F := Ideal)
      (matmul (F := Ideal) dot_S5000x256_S256x256_S5000x256_1_0_0_1_n_n none
        (truncf (F := Ideal) .bf16 (shapeCast S5000x256 a shapeCasts_S5000x256_S5000x256) bitsLt_bf16_f32) (truncf (F := Ideal) .bf16 w2 bitsLt_bf16_f32)
        (constant (F := Ideal) S5000x256 .f32 0x00000000#32))
      (broadcastTo S5000x256 (shapeCast S1x256 b2 shapeCasts_S1x256_S1x256) broadcasts_S1x256_S5000x256))
    (broadcast S5000x256 (Scalar.ofBits (F := Ideal) .f32 0x00000000#32))

theorem hiddenBlock_apply (a : Vec Ideal S5000x256 .f32) (w2 : Vec Ideal S256x256 .f32) (b2 : Vec Ideal S1x256 .f32) (i : S5000x256.Idx) :
    hiddenBlock a w2 b2 i = max ((∑ j : Fin 256, a (aggAt i j) * w2 (w2At i j)) + b2 (b2At i)) (Ideal.ofBits .f32 0x00000000#32) := by
  unfold hiddenBlock
  show max (matmul (F := Ideal) dot_S5000x256_S256x256_S5000x256_1_0_0_1_n_n none
        (truncf (F := Ideal) .bf16 (shapeCast S5000x256 a shapeCasts_S5000x256_S5000x256) bitsLt_bf16_f32) (truncf (F := Ideal) .bf16 w2 bitsLt_bf16_f32)
        (constant (F := Ideal) S5000x256 .f32 0x00000000#32) i
      + broadcastTo S5000x256 (shapeCast S1x256 b2 shapeCasts_S1x256_S1x256) broadcasts_S1x256_S5000x256 i) (Ideal.ofBits .f32 0x00000000#32) = _
  rw [hid_product_apply, b2_apply, shapeCast_self, shapeCast_self]
  rfl

/-! ## The second product (5000×256 by 256×1): entry (p, 0) and contraction index k read g[p, k] and wc[k, 0] -/

theorem out_lhs_axis0 (i : S5000x1.Idx) (q : dot_S5000x256_S256x1_S5000x1_1_0_0_1_n_n.contr.Idx) :
    (dot_S5000x256_S256x1_S5000x1_1_0_0_1_n_n.lhsIdx i q 0).val = (i 0).val := by
  unfold DotDims.lhsIdx
  rw [dif_neg (show ¬(0 : Fin S5000x256.rank) ∈ dot_S5000x256_S256x1_S5000x1_1_0_0_1_n_n.lhsBatch by decide), dif_pos (show (0 : Fin S5000x256.rank) ∈ dot_S5000x256_S256x1_S5000x1_1_0_0_1_n_n.lhsNonContracting by decide)]
  rfl
theorem out_lhs_axis1 (i : S5000x1.Idx) (q : dot_S5000x256_S256x1_S5000x1_1_0_0_1_n_n.contr.Idx) :
    (dot_S5000x256_S256x1_S5000x1_1_0_0_1_n_n.lhsIdx i q 1).val = (q ⟨0, by decide⟩).val :=
  dot_S5000x256_S256x1_S5000x1_1_0_0_1_n_n.lhsIdx_val_of_single rfl i q
theorem out_rhs_axis0 (i : S5000x1.Idx) (q : dot_S5000x256_S256x1_S5000x1_1_0_0_1_n_n.contr.Idx) :
    (dot_S5000x256_S256x1_S5000x1_1_0_0_1_n_n.rhsIdx i q 0).val = (q ⟨0, by decide⟩).val :=
  dot_S5000x256_S256x1_S5000x1_1_0_0_1_n_n.rhsIdx_val_of_single rfl i q
theorem out_rhs_axis1 (i : S5000x1.Idx) (q : dot_S5000x256_S256x1_S5000x1_1_0_0_1_n_n.contr.Idx) :
    (dot_S5000x256_S256x1_S5000x1_1_0_0_1_n_n.rhsIdx i q 1).val = (i 1).val := by
  unfold DotDims.rhsIdx
  rw [dif_neg (show ¬(1 : Fin S256x1.rank) ∈ dot_S5000x256_S256x1_S5000x1_1_0_0_1_n_n.rhsBatch by decide), dif_pos (show (1 : Fin S256x1.rank) ∈ dot_S5000x256_S256x1_S5000x1_1_0_0_1_n_n.rhsNonContracting by decide)]
  rfl

/-- Row `i 0` of the hidden block at column `k`. -/
abbrev hidAt (i : S5000x1.Idx) (k : Fin 256) : S5000x256.Idx := fun a => match a with
  | ⟨0, _⟩ => ⟨(i 0).val, (i 0).isLt⟩
  | ⟨1, _⟩ => ⟨k.val, k.isLt⟩
/-- Entry `k` of the head's weight column. -/
abbrev wcAt (i : S5000x1.Idx) (k : Fin 256) : S256x1.Idx := fun a => match a with
  | ⟨0, _⟩ => ⟨k.val, k.isLt⟩
  | ⟨1, _⟩ => ⟨(i 1).val, (i 1).isLt⟩
/-- The head's one bias entry. -/
abbrev bcAt (i : S5000x1.Idx) : S1x1.Idx := fun a => match a with
  | ⟨0, _⟩ => ⟨0, Nat.one_pos⟩
  | ⟨1, _⟩ => ⟨0, Nat.one_pos⟩

theorem out_product_apply {φ₁ φ₂ : FTy} (l : FVec Ideal S5000x256 φ₁) (r : FVec Ideal S256x1 φ₂) (i : S5000x1.Idx) :
    matmul (F := Ideal) dot_S5000x256_S256x1_S5000x1_1_0_0_1_n_n none l r (constant (F := Ideal) S5000x1 .f32 0x00000000#32) i
      = ∑ k : Fin 256, l (hidAt i k) * r (wcAt i k) := by
  show FloatOps.matmul (F := Ideal) dot_S5000x256_S256x1_S5000x1_1_0_0_1_n_n none l r (constant (F := Ideal) S5000x1 .f32 0x00000000#32) i = _
  rw [Ideal.matmul_constant_zero_apply, ← Equiv.sum_comp (ValueIdx.contrEquiv1 dot_S5000x256_S256x1_S5000x1_1_0_0_1_n_n 256 rfl rfl).symm]
  refine Finset.sum_congr rfl fun k _ => ?_
  have hk := ValueIdx.contrEquiv1_symm_val dot_S5000x256_S256x1_S5000x1_1_0_0_1_n_n 256 rfl rfl k
  have el : dot_S5000x256_S256x1_S5000x1_1_0_0_1_n_n.lhsIdx i ((ValueIdx.contrEquiv1 dot_S5000x256_S256x1_S5000x1_1_0_0_1_n_n 256 rfl rfl).symm k) = hidAt i k := funext fun a => Fin.ext (by
    match a with
    | ⟨0, _⟩ => exact out_lhs_axis0 _ _
    | ⟨1, _⟩ => exact (out_lhs_axis1 _ _).trans hk)
  have er : dot_S5000x256_S256x1_S5000x1_1_0_0_1_n_n.rhsIdx i ((ValueIdx.contrEquiv1 dot_S5000x256_S256x1_S5000x1_1_0_0_1_n_n 256 rfl rfl).symm k) = wcAt i k := funext fun a => Fin.ext (by
    match a with
    | ⟨0, _⟩ => exact (out_rhs_axis0 _ _).trans hk
    | ⟨1, _⟩ => exact out_rhs_axis1 _ _)
  rw [el, er]

theorem bc_apply (b : FVec Ideal S1x1 .f32) (i : S5000x1.Idx) :
    broadcastTo S5000x1 b broadcasts_S1x1_S5000x1 i = b (bcAt i) :=
  broadcastTo_apply b broadcasts_S1x1_S5000x1 i (bcAt i) (fun a => match a with
    | ⟨0, _⟩ => by show 0 = if (1 : Nat) = 1 then 0 else (i 0).val; rw [if_pos rfl]
    | ⟨1, _⟩ => by show 0 = if (1 : Nat) = 1 then 0 else (i 1).val; rw [if_pos rfl])

/-- The pre-activation column  g · wc + bc. -/
def preact (g : FVec Ideal S5000x256 .f32) (wc : Vec Ideal S256x1 .f32) (bc : Vec Ideal S1x1 .f32) : FVec Ideal S5000x1 .f32 :=
  addf (F := Ideal)
    (matmul (F := Ideal) dot_S5000x256_S256x1_S5000x1_1_0_0_1_n_n none (truncf (F := Ideal) .bf16 g bitsLt_bf16_f32) (truncf (F := Ideal) .bf16 wc bitsLt_bf16_f32)
      (constant (F := Ideal) S5000x1 .f32 0x00000000#32))
    (broadcastTo S5000x1 (shapeCast S1x1 bc shapeCasts_S1x1_S1x1) broadcasts_S1x1_S5000x1)

theorem preact_apply (g : FVec Ideal S5000x256 .f32) (wc : Vec Ideal S256x1 .f32) (bc : Vec Ideal S1x1 .f32) (i : S5000x1.Idx) :
    preact g wc bc i = (∑ k : Fin 256, g (hidAt i k) * wc (wcAt i k)) + bc (bcAt i) := by
  unfold preact
  show matmul (F := Ideal) dot_S5000x256_S256x1_S5000x1_1_0_0_1_n_n none (truncf (F := Ideal) .bf16 g bitsLt_bf16_f32) (truncf (F := Ideal) .bf16 wc bitsLt_bf16_f32)
        (constant (F := Ideal) S5000x1 .f32 0x00000000#32) i
      + broadcastTo S5000x1 (shapeCast S1x1 bc shapeCasts_S1x1_S1x1) broadcasts_S1x1_S5000x1 i = _
  rw [out_product_apply, bc_apply, shapeCast_self]
  rfl

/-! ## The block body at an entry -/

/-- The body is the column tail of the pre-activation of the hidden block (the body's text, regrouped). -/
theorem payload_split (a : Vec Ideal S5000x256 .f32) (w2 : Vec Ideal S256x256 .f32) (b2 : Vec Ideal S1x256 .f32) (wc : Vec Ideal S256x1 .f32) (bc : Vec Ideal S1x1 .f32) :
    k1_pay1 (F := Ideal) a w2 b2 wc bc = tailColumn (preact (hiddenBlock a w2 b2) wc bc) := rfl

/-- THE BLOCK BODY AT AN ENTRY: the confidence of (∑ k, max ((∑ j, a[p, j] · w2[j, k]) + b2[0, k], 0) · wc[k, 0]) + bc[0, 0]. -/
theorem payload_apply (a : Vec Ideal S5000x256 .f32) (w2 : Vec Ideal S256x256 .f32) (b2 : Vec Ideal S1x256 .f32) (wc : Vec Ideal S256x1 .f32) (bc : Vec Ideal S1x1 .f32) (i : S5000x1.Idx) :
    k1_pay1 (F := Ideal) a w2 b2 wc bc i
      = confidence ((∑ k : Fin 256, max ((∑ j : Fin 256, a (aggAt (hidAt i k) j) * w2 (w2At (hidAt i k) j)) + b2 (b2At (hidAt i k))) (Ideal.ofBits .f32 0x00000000#32) * wc (wcAt i k)) + bc (bcAt i)) := by
  rw [payload_split, tailColumn_apply, confidenceBody_eq, preact_apply]
  refine congrArg (fun s => confidence (s + _)) (Finset.sum_congr rfl fun k _ => ?_)
  rw [hiddenBlock_apply]

end Cert.KernelIdeal.Head

end
-- ==== Proof.HeadArray.lean ====
/-
  The second region's output array: the confidence  sp / (1 + sp),  sp = softplus (relu (agg2 · W2 + b2) · Wc + bc),  as
  ONE function of the arrays the region is entered with.

  Point `t` of the twenty fetches rows 5000·t … 5000·t + 4999 of the second aggregate and the whole of the four small
  operands, and writes back rows 5000·t … 5000·t + 4999 of the one output column. Output entry (r, 0) depends on row r
  of the aggregate only: it is the confidence of
      (∑ k, max ((∑ j, agg2[r, j] · W2[j, k]) + b2[k], 0) · Wc[k, 0]) + bc[0],
  which is what the reference's result holds at (r, 0) when the region's five input arrays are the reference's second
  aggregate, the weights, the bias row, the head's column and the head's bias. The row blocks tile the column.
-/
import proofs.«180237_j2241972928775_1_alg».proof.Proof.Gen.KernelIdeal.Frame
import proofs.«180237_j2241972928775_1_alg».proof.Proof.Gen.ReferenceIdeal.Read
import proofs.«180237_j2241972928775_1_alg».proof.Proof.HeadPayload

set_option maxRecDepth 16384

noncomputable section

namespace Cert.KernelIdeal.Head

open Cert.KernelIdeal Cert.KernelIdeal.Gen Idealize.ShloMosaic Idealize.ShloMosaic.TcCoe Idealize.ShloMosaic.ValueIdx Idealize.SL.Sem
open Idealize.ShloMosaic.Pipeline (Dat)
open Cert.ReferenceIdeal.Read

/-! ## The reference's tail, one step at a time -/

section Reference
variable (x0 : (⟨Cert.ReferenceIdeal.S100000x128, .f32⟩ : BufTy).Contents (Elt Ideal)) (x1 : (⟨Cert.ReferenceIdeal.S100000, .i32⟩ : BufTy).Contents (Elt Ideal))
    (x2 : (⟨Cert.ReferenceIdeal.S128x256, .f32⟩ : BufTy).Contents (Elt Ideal)) (x3 : (⟨Cert.ReferenceIdeal.S256, .f32⟩ : BufTy).Contents (Elt Ideal)) (x4 : (⟨Cert.ReferenceIdeal.S256x256, .f32⟩ : BufTy).Contents (Elt Ideal))
    (x5 : (⟨Cert.ReferenceIdeal.S256, .f32⟩ : BufTy).Contents (Elt Ideal)) (x6 : (⟨Cert.ReferenceIdeal.S256x1, .f32⟩ : BufTy).Contents (Elt Ideal)) (x7 : (⟨Cert.ReferenceIdeal.S1, .f32⟩ : BufTy).Contents (Elt Ideal))

/-- The reference's result at an entry is the confidence of its pre-activation there: its softplus is the same
    logaddexp, with the unordered `≠` as the guard and a negation where the block body subtracts from zero. -/
theorem result_at (I : Cert.ReferenceIdeal.S100000x1.Idx) :
    val_main_v37 (F := Ideal) x0 x1 x2 x3 x4 x5 x6 x7 I = confidence (val_main_v33 (F := Ideal) x0 x1 x2 x3 x4 x5 x6 x7 I) := by
  rw [val_main_v37_apply, val_main_v36_apply, val_main_v35_apply, val_main_cst_4_apply, val_main_v34_apply,
    val_main_call2_v4_apply, val_main_call2_v6_apply, val_main_call2_v11_apply, val_main_call2_v1_apply, val_main_call2_v10_apply,
    val_main_call2_v9_apply, val_main_call2_v8_apply, val_main_call2_v7_apply, val_main_call2_v3_apply, val_main_call2_v2_apply,
    val_main_call2_v5_apply, val_main_call2_v0_apply, val_main_call2_cst_apply]
  generalize val_main_v33 (F := Ideal) x0 x1 x2 x3 x4 x5 x6 x7 I = c
  rfl

/-- The pre-activation at row r: the 256-term sum of the second hidden layer's row r against the head's column, plus
    the head's bias. -/
theorem preact_at (I : Cert.ReferenceIdeal.S100000x1.Idx) :
    val_main_v33 (F := Ideal) x0 x1 x2 x3 x4 x5 x6 x7 I
      = (∑ k : Fin 256, val_main_v29 (F := Ideal) x0 x1 x2 x3 x4 x5 (lidx_main_v30 I k) * x6 (ridx_main_v30 I k)) + val_main_v31 (F := Ideal) x7 (idx_main_v32 I) := by
  rw [val_main_v33_apply, val_main_v30_apply, val_main_v32_apply]
  rfl

/-- The second hidden layer at (r, k): relu of the 256-term sum along row r of the second aggregate and column k of the
    weights, plus the bias entry. -/
theorem hidden2_at (J : Cert.ReferenceIdeal.S100000x256.Idx) :
    val_main_v29 (F := Ideal) x0 x1 x2 x3 x4 x5 J
      = max ((∑ j : Fin 256, val_main_v24 (F := Ideal) x0 x1 x2 x3 (lidx_main_v25 J j) * x4 (ridx_main_v25 J j)) + val_main_v26 (F := Ideal) x5 (idx_main_v27 J)) (Ideal.ofBits .f32 0x00000000#32) := by
  rw [val_main_v29_apply, val_main_v28_apply, val_main_v25_apply, val_main_v27_apply, val_main_call1_v0_apply, val_main_call1_cst_apply]
  rfl

end Reference

/-! ## Where each window's block sits -/

theorem hz : (![0, 0] : Fin 2 → Nat) = fun _ => 0 := funext fun a => by fin_cases a <;> rfl

/-- The block indices over the grid: the aggregate's window moves down the rows with the output window, the four small
    windows stay at the origin, and the output has one column block. -/
theorem idx_facts : ∀ t : Fin cfg1.N, win1_0.index t (0 : Fin 2) = win1_5.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (1 : Fin 2) = 0 :=
  (by decide +kernel : ∀ t : Fin grid1.N, _)

/-- Every row block is some point's. -/
theorem idx_onto : ∀ q : Fin 20, ∃ t : Fin cfg1.N, win1_5.index t = ![q.val, 0] :=
  (by decide +kernel : ∀ q : Fin 20, ∃ t : Fin grid1.N, win1_5.index t = ![q.val, 0])

section Region
variable (V : (c : Dev nD) → (b : Ref sig .tc) → Buf (Elt Ideal) ((c : Thread nD τ).loc b)) (c : Dev nD)
variable (x0 : (⟨Cert.ReferenceIdeal.S100000x128, .f32⟩ : BufTy).Contents (Elt Ideal)) (x1 : (⟨Cert.ReferenceIdeal.S100000, .i32⟩ : BufTy).Contents (Elt Ideal))
    (x2 : (⟨Cert.ReferenceIdeal.S128x256, .f32⟩ : BufTy).Contents (Elt Ideal)) (x3 : (⟨Cert.ReferenceIdeal.S256, .f32⟩ : BufTy).Contents (Elt Ideal)) (x4 : (⟨Cert.ReferenceIdeal.S256x256, .f32⟩ : BufTy).Contents (Elt Ideal))
    (x5 : (⟨Cert.ReferenceIdeal.S256, .f32⟩ : BufTy).Contents (Elt Ideal)) (x6 : (⟨Cert.ReferenceIdeal.S256x1, .f32⟩ : BufTy).Contents (Elt Ideal)) (x7 : (⟨Cert.ReferenceIdeal.S1, .f32⟩ : BufTy).Contents (Elt Ideal))

/-- Entry (p, j) of the aggregate block at point `t` is entry (5000·t + p, j) of the second aggregate: what the
    reference's first product reads for hidden entry (5000·t + p, k). -/
theorem aggregate_read (hA : (V c main_v21 : S100000x256.Idx → EReal) = val_main_v24 (F := Ideal) x0 x1 x2 x3) (t : Fin cfg1.N) (i : S5000x1.Idx) (k j : Fin 256) :
    iblk1 V c 0 t (aggAt (hidAt i k) j)
      = val_main_v24 (F := Ideal) x0 x1 x2 x3 (lidx_main_v25 (lidx_main_v30 (((cfg1.win 5).blk t).view.emb i) k) j) := by
  obtain ⟨e0, e1, e2, e3, e4, e5, e6, e7, e8, e9, e10⟩ := idx_facts t
  show V c main_v21 (((cfg1.win 0).blk t).view.emb (aggAt (hidAt i k) j)) = _
  rw [hA]
  refine congrArg (val_main_v24 (F := Ideal) x0 x1 x2 x3) (funext fun a => Fin.ext ?_)
  match a with
  | ⟨0, _⟩ => show win1_0.index t (0 : Fin 2) * 5000 + 1 * (i 0).val = win1_5.index t (0 : Fin 2) * 5000 + 1 * (i 0).val; omega
  | ⟨1, _⟩ => show win1_0.index t (1 : Fin 2) * 256 + 1 * j.val = j.val; omega

/-- Entry (j, k) of the weight block is entry (j, k) of the weights. -/
theorem weights_read (hW : (V c main_arg4 : S256x256.Idx → EReal) = x4) (t : Fin cfg1.N) (i : S5000x1.Idx) (k j : Fin 256) :
    iblk1 V c 1 t (w2At (hidAt i k) j) = x4 (ridx_main_v25 (lidx_main_v30 (((cfg1.win 5).blk t).view.emb i) k) j) := by
  obtain ⟨e0, e1, e2, e3, e4, e5, e6, e7, e8, e9, e10⟩ := idx_facts t
  show V c main_arg4 (((cfg1.win 1).blk t).view.emb (w2At (hidAt i k) j)) = _
  rw [hW]
  refine congrArg x4 (funext fun a => Fin.ext ?_)
  match a with
  | ⟨0, _⟩ => show win1_1.index t (0 : Fin 2) * 256 + 1 * j.val = j.val; omega
  | ⟨1, _⟩ => show win1_1.index t (1 : Fin 2) * 256 + 1 * k.val = k.val; omega

/-- Entry (0, k) of the bias block is the bias row's entry k. -/
theorem bias_read (hB : (V c main_v22 : S1x256.Idx → EReal) = val_main_v26 (F := Ideal) x5) (t : Fin cfg1.N) (i : S5000x1.Idx) (k : Fin 256) :
    iblk1 V c 2 t (b2At (hidAt i k)) = val_main_v26 (F := Ideal) x5 (idx_main_v27 (lidx_main_v30 (((cfg1.win 5).blk t).view.emb i) k)) := by
  obtain ⟨e0, e1, e2, e3, e4, e5, e6, e7, e8, e9, e10⟩ := idx_facts t
  show V c main_v22 (((cfg1.win 2).blk t).view.emb (b2At (hidAt i k))) = _
  rw [hB]
  refine congrArg (val_main_v26 (F := Ideal) x5) (funext fun a => Fin.ext ?_)
  match a with
  | ⟨0, _⟩ => show win1_2.index t (0 : Fin 2) * 1 + 1 * 0 = 0; omega
  | ⟨1, _⟩ => show win1_2.index t (1 : Fin 2) * 256 + 1 * k.val = k.val; omega

/-- Entry (k, 0) of the head's column block is entry (k, 0) of the head's column. -/
theorem column_read (hC : (V c main_arg6 : S256x1.Idx → EReal) = x6) (t : Fin cfg1.N) (i : S5000x1.Idx) (k : Fin 256) :
    iblk1 V c 3 t (wcAt i k) = x6 (ridx_main_v30 (((cfg1.win 5).blk t).view.emb i) k) := by
  obtain ⟨e0, e1, e2, e3, e4, e5, e6, e7, e8, e9, e10⟩ := idx_facts t
  show V c main_arg6 (((cfg1.win 3).blk t).view.emb (wcAt i k)) = _
  rw [hC]
  refine congrArg x6 (funext fun a => Fin.ext ?_)
  match a with
  | ⟨0, _⟩ => show win1_3.index t (0 : Fin 2) * 256 + 1 * k.val = k.val; omega
  | ⟨1, _⟩ => show win1_3.index t (1 : Fin 2) * 1 + 1 * (i 1).val = win1_5.index t (1 : Fin 2) * 1 + 1 * (i 1).val; omega

/-- The head's bias block is the head's bias. -/
theorem headbias_read (hD : (V c main_v23 : S1x1.Idx → EReal) = val_main_v31 (F := Ideal) x7) (t : Fin cfg1.N) (i : S5000x1.Idx) :
    iblk1 V c 4 t (bcAt i) = val_main_v31 (F := Ideal) x7 (idx_main_v32 (((cfg1.win 5).blk t).view.emb i)) := by
  obtain ⟨e0, e1, e2, e3, e4, e5, e6, e7, e8, e9, e10⟩ := idx_facts t
  show V c main_v23 (((cfg1.win 4).blk t).view.emb (bcAt i)) = _
  rw [hD]
  refine congrArg (val_main_v31 (F := Ideal) x7) (funext fun a => Fin.ext ?_)
  match a with
  | ⟨0, _⟩ => show win1_4.index t (0 : Fin 2) * 1 + 1 * 0 = 0; omega
  | ⟨1, _⟩ => show win1_4.index t (1 : Fin 2) * 1 + 1 * 0 = 0; omega

/-- WHAT POINT `t` WRITES BACK is block `t` of the reference's result. -/
theorem flushed_eq (hA : (V c main_v21 : S100000x256.Idx → EReal) = val_main_v24 (F := Ideal) x0 x1 x2 x3) (hW : (V c main_arg4 : S256x256.Idx → EReal) = x4)
    (hB : (V c main_v22 : S1x256.Idx → EReal) = val_main_v26 (F := Ideal) x5) (hC : (V c main_arg6 : S256x1.Idx → EReal) = x6)
    (hD : (V c main_v23 : S1x1.Idx → EReal) = val_main_v31 (F := Ideal) x7) (t : Fin cfg1.N) :
    (dat1 V c).flushed 5 t = ((cfg1.win 5).blk t).view.read (Elt Ideal) (val_main_v37 (F := Ideal) x0 x1 x2 x3 x4 x5 x6 x7) := by
  show (cfg1.win 5).cut (grid1.coords t) ((dat1 V c).after 5 t) = _
  rw [after1_5]
  unfold out1_5
  rw [View.canon_unit_zero hz]
  simp only [View.ld_unit_zero (S := S5000x256) hz, View.ld_unit_zero (S := S256x256) hz, View.ld_unit_zero (S := S1x256) hz, View.ld_unit_zero (S := S256x1) hz, View.ld_unit_zero (S := S1x1) hz]
  funext i
  show k1_pay1 (F := Ideal) (iblk1 V c 0 t) (iblk1 V c 1 t) (iblk1 V c 2 t) (iblk1 V c 3 t) (iblk1 V c 4 t) i = val_main_v37 (F := Ideal) x0 x1 x2 x3 x4 x5 x6 x7 (((cfg1.win 5).blk t).view.emb i)
  refine (payload_apply (iblk1 V c 0 t) (iblk1 V c 1 t) (iblk1 V c 2 t) (iblk1 V c 3 t) (iblk1 V c 4 t) i).trans ?_
  rw [result_at, preact_at, headbias_read V c x7 hD t i]
  refine congrArg (fun s => confidence (s + _)) (Finset.sum_congr rfl fun k _ => ?_)
  rw [hidden2_at, column_read V c x6 hC t i k, bias_read V c x5 hB t i k]
  refine congrArg (fun s => max (s + _) _ * _) (Finset.sum_congr rfl fun j _ => ?_)
  rw [aggregate_read V c x0 x1 x2 x3 hA t i k j, weights_read V c x4 hW t i k j]

/-- An index of the output column is in point `t`'s block iff each coordinate is in the block's range on its axis. -/
theorem mem_blk (t : Fin cfg1.N) (i : S100000x1.Idx) :
    i ∈ ((cfg1.win 5).blk t).view.set ↔ ∀ a : Fin 2, win1_5.index t a * S5000x1.size a ≤ (i a).val ∧ (i a).val < win1_5.index t a * S5000x1.size a + S5000x1.size a := by
  show i ∈ ((View.whole main_v24).slice (win1_5.rect t)).set ↔ _
  rw [View.set_slice_whole, Rect.mem_set_unit]
  exact Iff.rfl

/-- The row blocks tile the column: row r is in the block of point r / 5000. -/
theorem cover (i : S100000x1.Idx) : ∃ t : Fin cfg1.N, (cfg1.win 5).flush t = true ∧ i ∈ ((cfg1.win 5).blk t).view.set := by
  have hi0 : (i 0).val < 100000 := (i 0).isLt
  have hi1 : (i 1).val < 1 := (i 1).isLt
  obtain ⟨t, ht⟩ := idx_onto ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 1 ≤ (i 1).val ∧ (i 1).val < win1_5.index t (1 : Fin 2) * 1 + 1; omega

/-- THE OUTPUT COLUMN AFTER THE REGION is the reference's result, whenever the region is entered with the reference's
    second aggregate, the weights, the bias row, the head's column and the head's bias in its five input arrays. -/
theorem result_array (hA : (V c main_v21 : S100000x256.Idx → EReal) = val_main_v24 (F := Ideal) x0 x1 x2 x3) (hW : (V c main_arg4 : S256x256.Idx → EReal) = x4)
    (hB : (V c main_v22 : S1x256.Idx → EReal) = val_main_v26 (F := Ideal) x5) (hC : (V c main_arg6 : S256x1.Idx → EReal) = x6)
    (hD : (V c main_v23 : S1x1.Idx → EReal) = val_main_v31 (F := Ideal) x7) :
    (dat1 V c).arrAt 5 cfg1.N = val_main_v37 (F := Ideal) x0 x1 x2 x3 x4 x5 x6 x7 :=
  (dat1 V c).arrAt_eq_of_cover 5 (val_main_v37 (F := Ideal) x0 x1 x2 x3 x4 x5 x6 x7) (fun t _ => flushed_eq V c x0 x1 x2 x3 x4 x5 x6 x7 hA hW hB hC hD t) cover

end Region

end Cert.KernelIdeal.Head

end
-- ==== Proof.KernelHost.lean ====
/-
  The host operations around the two regions, read back.

  Before the first region the program forms the per-graph aggregate of the node features — a scatter-add of the rows
  into 512 graph slots by graph id, then a gather of each node's slot back, with negative ids wrapped by 512 — and
  reshapes the bias vector to a row. Between the regions it forms the same aggregate of the hidden layer and reshapes
  the two remaining biases. These are the reference's own operations on the same operands: the aggregates are the
  reference's terms as they stand (the two programs share the chain, so it is never opened), and a `reshape` of a
  vector to a one-row matrix holds the same entries as the reference's `broadcast_in_dim` of it along the new axis.
-/
import proofs.«180237_j2241972928775_1_alg».proof.Proof.Gen.KernelIdeal.Frame
import proofs.«180237_j2241972928775_1_alg».proof.Proof.Gen.ReferenceIdeal.Read
import Idealize.ShloMosaic.Lib.StableHlo.Run
import Idealize.ShloMosaic.Lib.Pipeline.Value

set_option maxRecDepth 16384

noncomputable section

namespace Cert.KernelIdeal.HostGlue

open Cert.KernelIdeal Cert.KernelIdeal.Gen Idealize.ShloMosaic Idealize.ShloMosaic.TcCoe Idealize.SL.Sem Idealize.ShloMosaic.StableHlo
open Cert.ReferenceIdeal.Read

/-! ## A vector reshaped to one row is the vector broadcast along a new leading axis -/

/-- [256] → [1, 256]: entry (0, q) of either is entry q of the vector (first layer's bias). -/
theorem bias1_row (x : (⟨Cert.ReferenceIdeal.S256, .f32⟩ : BufTy).Contents (Elt Ideal)) :
    shapeCast S1x256 x shapeCasts_S256_S1x256 = val_main_v11 (F := Ideal) x := by
  funext i
  rw [val_main_v11_apply]
  refine shapeCast_apply x shapeCasts_S256_S1x256 i (idx_main_v11 i) ?_
  rw [Shape.rowMajor_val_one, Shape.rowMajor_val_two]
  have h0 : (i 0).val < 1 := (i 0).isLt
  show (i 1).val = (i 0).val * 256 + (i 1).val
  omega

/-- The same for the second layer's bias. -/
theorem bias2_row (x : (⟨Cert.ReferenceIdeal.S256, .f32⟩ : BufTy).Contents (Elt Ideal)) :
    shapeCast S1x256 x shapeCasts_S256_S1x256 = val_main_v26 (F := Ideal) x := by
  funext i
  rw [val_main_v26_apply]
  refine shapeCast_apply x shapeCasts_S256_S1x256 i (idx_main_v26 i) ?_
  rw [Shape.rowMajor_val_one, Shape.rowMajor_val_two]
  have h0 : (i 0).val < 1 := (i 0).isLt
  show (i 1).val = (i 0).val * 256 + (i 1).val
  omega

/-- [1] → [1, 1]: the head's one bias entry. -/
theorem headbias_row (x : (⟨Cert.ReferenceIdeal.S1, .f32⟩ : BufTy).Contents (Elt Ideal)) :
    shapeCast S1x1 x shapeCasts_S1_S1x1 = val_main_v31 (F := Ideal) x := by
  funext i
  rw [val_main_v31_apply]
  refine shapeCast_apply x shapeCasts_S1_S1x1 i (idx_main_v31 i) ?_
  rw [Shape.rowMajor_val_one, Shape.rowMajor_val_two]
  have h0 : (i 0).val < 1 := (i 0).isLt
  have h1 : (i 1).val < 1 := (i 1).isLt
  show 0 = (i 0).val * 1 + (i 1).val
  omega

/-! ## The stretch before the first region, from any contents `W` -/

section Stretches
variable (W : Valuation τ sig (Elt Ideal))

/-- The first region's feature array: the reference's first aggregate of the features and the graph ids. -/
theorem before_features :
    StableHlo.after hostOps0 W (Proc.devRef .tc main_v9)
      = val_main_v9 (F := Ideal) (W (Proc.devRef .tc main_arg0)) (W (Proc.devRef .tc main_arg1)) := by
  dsimp only [hostOps0]
  after_results
  rfl

/-- The weights are not written. -/
theorem before_weights : StableHlo.after hostOps0 W (Proc.devRef .tc main_arg2) = W (Proc.devRef .tc main_arg2) := by
  dsimp only [hostOps0]
  after_results

/-- The graph ids are not written. -/
theorem before_ids : StableHlo.after hostOps0 W (Proc.devRef .tc main_arg1) = W (Proc.devRef .tc main_arg1) := by
  dsimp only [hostOps0]
  after_results

/-- Nor are the second layer's weights and bias, nor the head's column and bias. -/
theorem before_weights2 : StableHlo.after hostOps0 W (Proc.devRef .tc main_arg4) = W (Proc.devRef .tc main_arg4) := by
  dsimp only [hostOps0]
  after_results
theorem before_bias2 : StableHlo.after hostOps0 W (Proc.devRef .tc main_arg5) = W (Proc.devRef .tc main_arg5) := by
  dsimp only [hostOps0]
  after_results
theorem before_column : StableHlo.after hostOps0 W (Proc.devRef .tc main_arg6) = W (Proc.devRef .tc main_arg6) := by
  dsimp only [hostOps0]
  after_results
theorem before_headbias : StableHlo.after hostOps0 W (Proc.devRef .tc main_arg7) = W (Proc.devRef .tc main_arg7) := by
  dsimp only [hostOps0]
  after_results

/-- The first region's bias row: the bias vector as a row. -/
theorem before_bias :
    StableHlo.after hostOps0 W (Proc.devRef .tc main_v10) = val_main_v11 (F := Ideal) (W (Proc.devRef .tc main_arg3)) := by
  dsimp only [hostOps0]
  after_results
  exact bias1_row _

/-! ## The stretch between the regions, from any contents `W` -/

/-- The second region's aggregate array: the reference's second aggregate, when the hidden layer's array holds the
    reference's hidden layer and the graph ids are in place. -/
theorem between_aggregate (x0 : (⟨Cert.ReferenceIdeal.S100000x128, .f32⟩ : BufTy).Contents (Elt Ideal)) (x1 : (⟨Cert.ReferenceIdeal.S100000, .i32⟩ : BufTy).Contents (Elt Ideal))
    (x2 : (⟨Cert.ReferenceIdeal.S128x256, .f32⟩ : BufTy).Contents (Elt Ideal)) (x3 : (⟨Cert.ReferenceIdeal.S256, .f32⟩ : BufTy).Contents (Elt Ideal))
    (hH : W (Proc.devRef .tc main_v11) = val_main_v14 (F := Ideal) x0 x1 x2 x3) (hI : W (Proc.devRef .tc main_arg1) = x1) :
    StableHlo.after hostOps1 W (Proc.devRef .tc main_v21) = val_main_v24 (F := Ideal) x0 x1 x2 x3 := by
  dsimp only [hostOps1]
  after_results
  rw [hH, hI]
  rfl

theorem between_weights : StableHlo.after hostOps1 W (Proc.devRef .tc main_arg4) = W (Proc.devRef .tc main_arg4) := by
  dsimp only [hostOps1]
  after_results

theorem between_column : StableHlo.after hostOps1 W (Proc.devRef .tc main_arg6) = W (Proc.devRef .tc main_arg6) := by
  dsimp only [hostOps1]
  after_results

theorem between_bias :
    StableHlo.after hostOps1 W (Proc.devRef .tc main_v22) = val_main_v26 (F := Ideal) (W (Proc.devRef .tc main_arg5)) := by
  dsimp only [hostOps1]
  after_results
  exact bias2_row _

theorem between_headbias :
    StableHlo.after hostOps1 W (Proc.devRef .tc main_v23) = val_main_v31 (F := Ideal) (W (Proc.devRef .tc main_arg7)) := by
  dsimp only [hostOps1]
  after_results
  exact headbias_row _

end Stretches

end Cert.KernelIdeal.HostGlue

end
-- ==== Proof.KernelValue.lean ====
/-
  The idealized kernel's result, as a function of its arguments.

  The program is four segments: host operations, the first dense layer's region, host operations, the head's region.
  Reading the buffer contents at the four boundaries from the launch memory on:
    · before the first region the feature array holds the reference's first aggregate of x by graph id, the bias array
      the bias row, the weights are untouched;
    · so the first region leaves the reference's hidden layer in its output array, and nothing else changes;
    · the host operations between form the reference's second aggregate of that array, and the two bias rows;
    · so the second region leaves the reference's result in the result array.
  Each step is one of the lemmas of the four modules below; this module only chains them.
-/
import proofs.«180237_j2241972928775_1_alg».proof.Proof.KernelResultRun
import proofs.«180237_j2241972928775_1_alg».proof.Proof.Layer1Array
import proofs.«180237_j2241972928775_1_alg».proof.Proof.HeadArray
import proofs.«180237_j2241972928775_1_alg».proof.Proof.KernelHost

set_option maxRecDepth 16384

noncomputable section

namespace Cert.KernelIdeal.ResultValue

open Cert.KernelIdeal Cert.KernelIdeal.Gen Idealize.ShloMosaic Idealize.ShloMosaic.TcCoe Idealize.SL.Sem
open Cert.ReferenceIdeal.Read

variable (m : (ℓ : Loc nD τ sig) → Buf (Elt Ideal) ℓ) (ρ : Dev nD → PrngReg)

/-- After the first region its output array holds the reference's hidden layer of the launch arguments. -/
theorem hidden_layer (c : Dev nD) :
    W2 m ρ c (Proc.devRef .tc main_v11)
      = val_main_v14 (F := Ideal) (m ((c.tc : Thread nD τ).loc main_arg0)) (m ((c.tc : Thread nD τ).loc main_arg1)) (m ((c.tc : Thread nD τ).loc main_arg2)) (m ((c.tc : Thread nD τ).loc main_arg3)) :=
  (W2_arr m ρ c 3).trans (Layer1.hidden_array (V1 m ρ) c
    (m ((c.tc : Thread nD τ).loc main_arg0)) (m ((c.tc : Thread nD τ).loc main_arg1)) (m ((c.tc : Thread nD τ).loc main_arg2)) (m ((c.tc : Thread nD τ).loc main_arg3))
    (HostGlue.before_features (W0 m ρ c)) (HostGlue.before_weights (W0 m ρ c)) (HostGlue.before_bias (W0 m ρ c)))

/-- After the second region the result array holds the reference's result of the launch arguments. -/
theorem result_value (c : Dev nD) :
    W4 m ρ c (Proc.devRef .tc main_v24) = val_main_v37 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  (ResultRun.result_is_window m ρ c).trans (Head.result_array (V3 m ρ) c
    (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
    (HostGlue.between_aggregate (W2 m ρ c) _ _ _ _ (hidden_layer m ρ c)
      ((W2_of_ne m ρ c main_arg1 (by decide)).trans (HostGlue.before_ids (W0 m ρ c))))
    ((HostGlue.between_weights (W2 m ρ c)).trans ((W2_of_ne m ρ c main_arg4 (by decide)).trans (HostGlue.before_weights2 (W0 m ρ c))))
    ((HostGlue.between_bias (W2 m ρ c)).trans (congrArg (val_main_v26 (F := Ideal)) ((W2_of_ne m ρ c main_arg5 (by decide)).trans (HostGlue.before_bias2 (W0 m ρ c)))))
    ((HostGlue.between_column (W2 m ρ c)).trans ((W2_of_ne m ρ c main_arg6 (by decide)).trans (HostGlue.before_column (W0 m ρ c))))
    ((HostGlue.between_headbias (W2 m ρ c)).trans (congrArg (val_main_v31 (F := Ideal)) ((W2_of_ne m ρ c main_arg7 (by decide)).trans (HostGlue.before_headbias (W0 m ρ c))))))

/-- THE RUN: every weakly fair execution terminates without a fault with the result array at the reference's result of
    the arguments, and the arguments unchanged. -/
theorem run : θ_run (defs (F := Ideal)) (onTc (τ := τ) (main (F := Ideal))) ⟨m, fun _ => 0, ρ⟩ (fun r => ∀ c : Dev nD,
      r.2.mem ((c.tc : Thread nD τ).loc main_v24) = val_main_v37 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_value m ρ c), (h c).2⟩) (ResultRun.run_result m ρ)

end Cert.KernelIdeal.ResultValue

end
-- ==== Proof.lean ====
/-
  The certificate: a two-layer graph network with a confidence head, written as two tiled kernels around host-side
  per-graph aggregation, computes what its plain reference computes over the extended reals.

  Both programs form  agg1 = (per-graph sum of x)[batch],  h = relu (agg1 · W1 + b1),  agg2 = (per-graph sum of h)[batch],
  c = relu (agg2 · W2 + b2) · Wc + bc  and return  sp / (1 + sp)  with  sp = logaddexp (c, 0). The kernel computes the two
  dense layers and the head in row blocks of 5000, casts its matrix operands to bf16 on the way (the identity on
  extended reals), multiplies on the matrix unit (the same sums), and spells the softplus guard and its negation
  differently (the same function). The aggregation is the same chain of host operations on both sides and is never
  opened. So the two results are one function of the arguments, index by index, and no finiteness is used.

  The three frames: the two kernels' are the generated frame certificates; the reference's is its run with the result
  dropped. The idealization rewrote nothing, so `preserves` is trivial.
-/
import proofs.«180237_j2241972928775_1_alg».proof.Defs
import proofs.«180237_j2241972928775_1_alg».proof.Proof.Gen.Kernel
import proofs.«180237_j2241972928775_1_alg».proof.Proof.Gen.Kernel.Frame
import proofs.«180237_j2241972928775_1_alg».proof.Proof.Gen.KernelIdeal
import proofs.«180237_j2241972928775_1_alg».proof.Proof.Gen.KernelIdeal.Frame
import proofs.«180237_j2241972928775_1_alg».proof.Proof.Gen.ReferenceIdeal
import proofs.«180237_j2241972928775_1_alg».proof.Proof.Gen.ReferenceIdeal.Run
import proofs.«180237_j2241972928775_1_alg».proof.Proof.Gen.ReferenceIdeal.Read
import proofs.«180237_j2241972928775_1_alg».proof.Proof.Gen.Pre_finite_inputs
import proofs.«180237_j2241972928775_1_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the result at the reference's last stage of the arguments: the kernel's by the value of its
    two regions, the reference's by its own run; the arguments agree, so the two results are equal. -/
theorem algebraic : Cert.algebraic_KernelIdeal_ReferenceIdeal := by
  intro m ρ m' ρ' _ hagree
  refine ⟨fun c => Cert.ReferenceIdeal.Read.val_main_v37 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.ResultValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v37_eq, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
